-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) (main_arg1 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x2048 : Shape := ⟨3, ![8, 2048, 2048]⟩
abbrev S8x32x64x32x64 : Shape := ⟨5, ![8, 32, 64, 32, 64]⟩
abbrev S_ : Shape := ⟨0, ![]⟩
abbrev S8x32x32 : Shape := ⟨3, ![8, 32, 32]⟩
abbrev S8x32x64x32 : Shape := ⟨4, ![8, 32, 64, 32]⟩
abbrev S8x2048x32 : Shape := ⟨3, ![8, 2048, 32]⟩
abbrev S8x2048x32x64 : Shape := ⟨4, ![8, 2048, 32, 64]⟩
abbrev S1x512x512 : Shape := ⟨3, ![1, 512, 512]⟩
abbrev S1x512x2048 : Shape := ⟨3, ![1, 512, 2048]⟩
abbrev S512x2048 : Shape := ⟨2, ![512, 2048]⟩
abbrev S512x512 : Shape := ⟨2, ![512, 512]⟩

abbrev nBuf : Space → Nat
  | .hbm => 16
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x32x64x32x64, .f32⟩
  | .hbm, ⟨4, _⟩ => ⟨S_, .f32⟩
  | .hbm, ⟨5, _⟩ => ⟨S8x32x32, .f32⟩
  | .hbm, ⟨6, _⟩ => ⟨S_, .f32⟩
  | .hbm, ⟨7, _⟩ => ⟨S8x32x32, .f32⟩
  | .hbm, ⟨8, _⟩ => ⟨S8x32x32, .i1⟩
  | .hbm, ⟨9, _⟩ => ⟨S8x32x64x32, .i1⟩
  | .hbm, ⟨10, _⟩ => ⟨S8x2048x32, .i1⟩
  | .hbm, ⟨11, _⟩ => ⟨S8x2048x32x64, .i1⟩
  | .hbm, ⟨12, _⟩ => ⟨S8x2048x2048, .i1⟩
  | .hbm, ⟨13, _⟩ => ⟨S8x2048x2048, .f32⟩
  | .hbm, ⟨14, _⟩ => ⟨S8x2048x2048, .f32⟩
  | .hbm, ⟨15, _⟩ => ⟨S8x2048x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x2048x2048_S8x32x64x32x64 : S8x2048x2048.ShapeCasts S8x32x64x32x64
  reducesTo_S8x32x64x32x64_S8x32x32_d2_4 : S8x32x64x32x64.ReducesTo [2, 4] S8x32x32
  h_S_ : 0 < S_.numel
  bcast_S_S8x32x32 : S_.BroadcastsInDim S8x32x32 (![] : Fin 0 → Fin S8x32x32.rank)
  bcast_S8x32x32_S8x32x64x32_0_1_3 : S8x32x32.BroadcastsInDim S8x32x64x32 (![0, 1, 3] : Fin 3 → Fin S8x32x64x32.rank)
  shapeCasts_S8x32x64x32_S8x2048x32 : S8x32x64x32.ShapeCasts S8x2048x32
  bcast_S8x2048x32_S8x2048x32x64_0_1_2 : S8x2048x32.BroadcastsInDim S8x2048x32x64 (![0, 1, 2] : Fin 3 → Fin S8x2048x32x64.rank)
  shapeCasts_S8x2048x32x64_S8x2048x2048 : S8x2048x32x64.ShapeCasts S8x2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x2048.size a
  hwx0_0 : ∀ i : grid0.Coords, EltTy.bits .f32 = 32 ∨ (Rect.block (s := S8x2048x2048) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x2048x2048.size a
  hwx0_1 : ∀ i : grid0.Coords, EltTy.bits .f32 = 32 ∨ (Rect.block (s := S8x2048x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x2048x2048.size a
  hwx0_2 : ∀ i : grid0.Coords, EltTy.bits .f32 = 32 ∨ (Rect.block (s := S8x2048x2048) S1x512x2048.size (cc0_transform_2 i) (hinb0_2 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v10) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x32x64x32x64 : Shape := ⟨5, ![8, 32, 64, 32, 64]⟩
abbrev S_ : Shape := ⟨0, ![]⟩
abbrev S8x32x32 : Shape := ⟨3, ![8, 32, 32]⟩
abbrev S8x32x64x32 : Shape := ⟨4, ![8, 32, 64, 32]⟩
abbrev S8x2048x32 : Shape := ⟨3, ![8, 2048, 32]⟩
abbrev S8x2048x32x64 : Shape := ⟨4, ![8, 2048, 32, 64]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x32x64x32x64, .f32⟩
  | .hbm, ⟨4, _⟩ => ⟨S_, .f32⟩
  | .hbm, ⟨5, _⟩ => ⟨S8x32x32, .f32⟩
  | .hbm, ⟨6, _⟩ => ⟨S_, .f32⟩
  | .hbm, ⟨7, _⟩ => ⟨S8x32x32, .f32⟩
  | .hbm, ⟨8, _⟩ => ⟨S8x32x32, .i1⟩
  | .hbm, ⟨9, _⟩ => ⟨S8x32x64x32, .i1⟩
  | .hbm, ⟨10, _⟩ => ⟨S8x2048x32, .i1⟩
  | .hbm, ⟨11, _⟩ => ⟨S8x2048x32x64, .i1⟩
  | .hbm, ⟨12, _⟩ => ⟨S8x2048x2048, .i1⟩
  | .hbm, ⟨13, _⟩ => ⟨S8x2048x2048, .f32⟩
  | .hbm, ⟨14, _⟩ => ⟨S8x2048x2048, .f32⟩
  | .hbm, ⟨15, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S8x2048x2048_S8x32x64x32x64 : S8x2048x2048.ShapeCasts S8x32x64x32x64
  reducesTo_S8x32x64x32x64_S8x32x32_d2_4 : S8x32x64x32x64.ReducesTo [2, 4] S8x32x32
  h_S_ : 0 < S_.numel
  bcast_S_S8x32x32 : S_.BroadcastsInDim S8x32x32 (![] : Fin 0 → Fin S8x32x32.rank)
  bcast_S8x32x32_S8x32x64x32_0_1_3 : S8x32x32.BroadcastsInDim S8x32x64x32 (![0, 1, 3] : Fin 3 → Fin S8x32x64x32.rank)
  shapeCasts_S8x32x64x32_S8x2048x32 : S8x32x64x32.ShapeCasts S8x2048x32
  bcast_S8x2048x32_S8x2048x32x64_0_1_2 : S8x2048x32.BroadcastsInDim S8x2048x32x64 (![0, 1, 2] : Fin 3 → Fin S8x2048x32x64.rank)
  shapeCasts_S8x2048x32x64_S8x2048x2048 : S8x2048x32x64.ShapeCasts S8x2048x2048
  dot_S8x2048x2048_S8x2048x2048_S8x2048x2048_2_1_1_2_0_0_wf : DotDims.WF S8x2048x2048 S8x2048x2048 S8x2048x2048 [2] [1] [1] [2] [0] [0]

variable [Facts₀]

def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.Pieces.lean ====
/-
  What one run of the kernel body leaves behind, as payload terms (any float instance).
  The body keeps a [512, 2048] accumulator in a scratch buffer that lives across grid points. At the first point of
  a contraction run it fills the accumulator with zeros and reads that back; at every point it adds the product of
  the point's two input blocks to what the accumulator held; at the last point of the run it copies the accumulator
  into the output block. Each lemma below reads the stores a case performs back as ONE term over the point's input
  blocks and the accumulator's previous contents:
    first point     : accumulator := (zeros) + A·B
    middle points   : accumulator := previous + A·B
    last point      : accumulator := previous + A·B, output block := that accumulator (re-shaped)
-/
import proofs.«108795_j23940147708357_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Middle points: the accumulator ends at the previous contents plus the blocks' product. -/
theorem scratch_B (c : Dev nD) (i : grid0.Coords) (a3 : Memref sig .tc .vmem S1x512x512 .f32) (h3 : a3.IsWhole)
    (a4 : Memref sig .tc .vmem S1x512x2048 .f32) (h4 : a4.IsWhole) (a5 : Memref sig .tc .vmem S1x512x2048 .f32) (h5 : a5.IsWhole)
    (a6 : Memref sig .tc .vmem S512x2048 .f32) (h6 : a6.IsWhole) (hc0 : ¬cond0_0 i) (hc1 : ¬cond0_1 i)
    (x0 : Vec F S1x512x512 .f32) (x1 : Vec F S1x512x2048 .f32) (xs0 : Vec F S512x2048 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz2]
  simp only [View.readAt_eq_ld, h3.read_unread, h4.read_unread, h6.read_unread, View.ld_unit_zero (S := S1x512x512) hz3,
    View.ld_unit_zero (S := S1x512x2048) hz3, View.ld_unit_zero (S := S512x2048) hz2]

/-- First point of a run: the accumulator is zero-filled, read back, and ends at zeros plus the blocks' product. -/
theorem scratch_A (c : Dev nD) (i : grid0.Coords) (a3 : Memref sig .tc .vmem S1x512x512 .f32) (h3 : a3.IsWhole)
    (a4 : Memref sig .tc .vmem S1x512x2048 .f32) (h4 : a4.IsWhole) (a5 : Memref sig .tc .vmem S1x512x2048 .f32) (h5 : a5.IsWhole)
    (a6 : Memref sig .tc .vmem S512x2048 .f32) (h6 : a6.IsWhole) (hc0 : cond0_0 i) (hc1 : ¬cond0_1 i)
    (x0 : Vec F S1x512x512 .f32) (x1 : Vec F S1x512x2048 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x2048) hz2]
  simp only [View.readCov_unit_zero (S := S512x2048) _ hz2, View.readAt_eq_ld, h3.read_unread, h4.read_unread,
    View.ld_unit_zero (S := S1x512x512) hz3, View.ld_unit_zero (S := S1x512x2048) hz3, View.ld_unit_zero (S := S512x2048) hz2]

/-- Last point of a run: the accumulator ends at the previous contents plus the blocks' product, -/
theorem scratch_C (c : Dev nD) (i : grid0.Coords) (a3 : Memref sig .tc .vmem S1x512x512 .f32) (h3 : a3.IsWhole)
    (a4 : Memref sig .tc .vmem S1x512x2048 .f32) (h4 : a4.IsWhole) (a5 : Memref sig .tc .vmem S1x512x2048 .f32) (h5 : a5.IsWhole)
    (a6 : Memref sig .tc .vmem S512x2048 .f32) (h6 : a6.IsWhole) (hc0 : ¬cond0_0 i) (hc1 : cond0_1 i)
    (x0 : Vec F S1x512x512 .f32) (x1 : Vec F S1x512x2048 .f32) (xs0 : Vec F S512x2048 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread, View.ld_unit_zero (S := S1x512x512) hz3,
    View.ld_unit_zero (S := S1x512x2048) hz3, View.ld_unit_zero (S := S512x2048) hz2]

/-- and the output block is that accumulator, re-shaped to the block's [1, 512, 2048]. -/
theorem out_C (c : Dev nD) (i : grid0.Coords) (a3 : Memref sig .tc .vmem S1x512x512 .f32) (h3 : a3.IsWhole)
    (a4 : Memref sig .tc .vmem S1x512x2048 .f32) (h4 : a4.IsWhole) (a5 : Memref sig .tc .vmem S1x512x2048 .f32) (h5 : a5.IsWhole)
    (a6 : Memref sig .tc .vmem S512x2048 .f32) (h6 : a6.IsWhole) (hc0 : ¬cond0_0 i) (hc1 : cond0_1 i)
    (x0 : Vec F S1x512x512 .f32) (x1 : Vec F S1x512x2048 .f32) (xs0 : Vec F S512x2048 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3]
  simp only [View.readCov_unit_zero (S := S512x2048) _ hz2, View.readAt_eq_ld, h3.read_unread, h4.read_unread, h6.read_unread,
    View.ld_unit_zero (S := S1x512x512) hz3, View.ld_unit_zero (S := S1x512x2048) hz3, View.ld_unit_zero (S := S512x2048) hz2]

end Cert.KernelIdeal.Pieces
end
-- ==== Proof.Payload.lean ====
/-
  The body's arithmetic read at an index, over the extended reals.
  With A a [1, 512, 512] block, B a [1, 512, 2048] block and acc the [512, 2048] accumulator:
    zero fill      : every entry is 0;
    one step       : entry (r, n) of the new accumulator is  acc (r, n) + Σ_{k < 512} A (0, r, k) · B (0, k, n)
                     (the casts to the 16-bit float format are the identity on extended reals, the matrix product
                     into a zero accumulator is the plain sum of products);
    the copy out   : entry (u, r, n) of the output block is the accumulator's entry (r, n).
-/
import proofs.«108795_j23940147708357_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-! ### The matrix product's operand indices: output (r, n), contraction k  ↦  A at (r, k), B at (k, n) -/

theorem lhs_mm_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl

theorem lhs_mm_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q

theorem rhs_mm_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q

theorem rhs_mm_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The product of a [512, 512] and a [512, 2048] matrix into a zero accumulator, at (r, n). -/
theorem product_apply (a : FVec Ideal S512x512 .bf16) (b : FVec Ideal S512x2048 .bf16) (r : Fin 512) (n : Fin 2048) :
    matmul dot_S512x512_S512x2048_S512x2048_1_0_0_1_n_n none a b (constant (F := Ideal) S512x2048 .f32 0x00000000#32) (ix2 r n)
      = ∑ k : Fin 512, a (ix2 r k) * b (ix2 k n) := by
  simp only [matmul]
  rw [Ideal.matmul_constant_zero_apply,
    ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 r n)
      ((ValueIdx.contrEquiv1 dot_S512x512_S512x2048_S512x2048_1_0_0_1_n_n 512 rfl rfl).symm k) = ix2 r k :=
    funext fun d => Fin.ext (by
      match d with
      | ⟨0, _⟩ => exact lhs_mm_0 _ _
      | ⟨1, _⟩ => exact (lhs_mm_1 _ _).trans hk)
  have er : dot_S512x512_S512x2048_S512x2048_1_0_0_1_n_n.rhsIdx (ix2 r n)
      ((ValueIdx.contrEquiv1 dot_S512x512_S512x2048_S512x2048_1_0_0_1_n_n 512 rfl rfl).symm k) = ix2 k n :=
    funext fun d => Fin.ext (by
      match d with
      | ⟨0, _⟩ => exact (rhs_mm_0 _ _).trans hk
      | ⟨1, _⟩ => exact rhs_mm_1 _ _)
  rw [el, er]

/-! ### The three stored values -/

/-- The zero fill. -/
theorem zero_fill_apply (j : S512x2048.Idx) : k0_pay1 (F := Ideal) j = 0 := by
  unfold k0_pay1
  simp only [shapeCast_self]
  exact Ideal.ofBits_zero_f32

/-- One accumulation step at (r, n). -/
theorem step_apply (x0 : Vec Ideal S1x512x512 .f32) (x1 : Vec Ideal S1x512x2048 .f32) (acc : Vec Ideal S512x2048 .f32)
    (r : Fin 512) (n : Fin 2048) :
    k0_pay2 x0 x1 acc (ix2 r n) = acc (ix2 r n) + ∑ k : Fin 512, x0 (ix3 (0 : Fin 1) r k) * x1 (ix3 (0 : Fin 1) k n) := by
  unfold k0_pay2
  simp only [shapeCast_self]
  rw [addf_apply, product_apply]
  refine congrArg (acc (ix2 r n) + ·) (Finset.sum_congr rfl fun k _ => ?_)
  rw [truncf_apply, truncf_apply, shapeCast_1ab_ab_apply, shapeCast_1ab_ab_apply]

/-- The copy into the output block at (u, r, n). -/
theorem copy_out_apply (acc : Vec Ideal S512x2048 .f32) (u : Fin 1) (r : Fin 512) (n : Fin 2048) :
    k0_pay3 acc (ix3 u r n) = acc (ix2 r n) := by
  unfold k0_pay3
  exact shapeCast_ab_1ab_apply acc _ u r n

end Cert.KernelIdeal.Payload
end
-- ==== Proof.BlockSums.lean ====
/-
  A sum over `w * n` consecutive naturals, cut into `n` consecutive blocks of width `w`: the sum of the
  block sums is the whole sum. Only commutativity and associativity of `+` are used, so the statement holds in any
  additive commutative monoid, the extended reals included (no finiteness is needed anywhere).
-/
import Mathlib.Algebra.BigOperators.Fin
import Mathlib.Algebra.BigOperators.Intervals

namespace Cert.BlockSums

open Finset

variable {β : Type*} [AddCommMonoid β]

/-- The blocks `[w·s, w·s + w)`, `s < n`, tile `[0, w·n)`. -/
theorem sum_range_blocks (f : ℕ → β) (w : ℕ) :
    ∀ n : ℕ, ∑ s ∈ range n, ∑ k ∈ range w, f (w * s + k) = ∑ k ∈ range (w * n), f k
  | 0 => by simp
  | n + 1 => by
    rw [Finset.sum_range_succ, sum_range_blocks f w n, Nat.mul_succ, Finset.sum_range_add]

/-- The same with the inner sums and the whole sum over `Fin`. -/
theorem sum_fin_blocks (f : ℕ → β) (w n N : ℕ) (hN : N = w * n) :
    ∑ s ∈ range n, ∑ k : Fin w, f (w * s + k.val) = ∑ k : Fin N, f k.val := by
  subst hN
  rw [← Finset.sum_range (fun k => f k), ← sum_range_blocks f w n]
  refine Finset.sum_congr rfl fun s _ => ?_
  exact (Finset.sum_range (fun k => f (w * s + k))).symm

end Cert.BlockSums
-- ==== Proof.KernelValue.lean ====
/-
  What the kernel leaves in its result array, over the extended reals.
  The grid is (batch b < 8, row tile i < 4, contraction tile kk < 4), visited in row-major order, so point number
  t stands for b = t / 16, i = t / 4 % 4, kk = t % 4, and the four points 4q, 4q+1, 4q+2, 4q+3 are one contraction run.
  At point t the kernel sees the block  X[b, 512 i .. 512 i + 512, 512 kk .. 512 kk + 512]  of the masked left array
  and the block  Y[b, 512 kk .. 512 kk + 512, 0 .. 2048]  of the right array, and adds their product to a
  [512, 2048] accumulator that is zeroed at kk = 0 and copied to the output block (b, i) at kk = 3. Hence the output
  block holds  0 + Σ_{kk < 4} Σ_{k < 512} X[b, 512 i + r, 512 kk + k] · Y[b, 512 kk + k, n],  which is the full
  contraction  Σ_{k < 2048} X[b, 512 i + r, k] · Y[b, k, n]  cut into four consecutive blocks; the 32 output blocks
  tile the [8, 2048, 2048] result.
-/
import proofs.«108795_j23940147708357_1_alg».proof.Proof.Gen.KernelIdeal.Value
import proofs.«108795_j23940147708357_1_alg».proof.Proof.Pieces
import proofs.«108795_j23940147708357_1_alg».proof.Proof.Payload
import proofs.«108795_j23940147708357_1_alg».proof.Proof.BlockSums
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Bmm

open Cert.KernelIdeal Cert.KernelIdeal.Gen

variable (m : (ℓ : Loc nD τ sig) → Buf (Elt Ideal) ℓ) (ρ : Dev nD → PrngReg)

/-- The batched matrix product of two [8, 2048, 2048] arrays: entry (b, r, n) is Σ_k X[b, r, k] · Y[b, k, n]. -/
def bmm (X Y : Vec Ideal S8x2048x2048 .f32) : Vec Ideal S8x2048x2048 .f32 := fun i =>
  ∑ k : Fin 2048, X (ix3 (i 0) (i 1) k) * Y (ix3 (i 0) k (i 2))

/-- The left array as the kernel region finds it (the masked input), and the right array. -/
abbrev lhsArr (c : Dev nD) : Vec Ideal S8x2048x2048 .f32 := V m c main_v10
abbrev rhsArr (c : Dev nD) : Vec Ideal S8x2048x2048 .f32 := V m c main_arg1

/-- The two input blocks of point `t`. -/
abbrev ablk (c : Dev nD) (t : Fin cfg0.N) : Vec Ideal S1x512x512 .f32 := iblk m c 0 t
abbrev bblk (c : Dev nD) (t : Fin cfg0.N) : Vec Ideal S1x512x2048 .f32 := iblk m c 1 t

/-- The block indices of the three windows at point `t`: (b, i, kk), (b, kk, 0) and (b, i, 0). -/
theorem idx_facts : ∀ t : Fin cfg0.N,
    win0_0.index t (0 : Fin 3) = t.val / 16 ∧ win0_0.index t (1 : Fin 3) = t.val / 4 % 4 ∧ win0_0.index t (2 : Fin 3) = t.val % 4
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val / 4 % 4 ∧ win0_2.index t (2 : Fin 3) = 0 :=
  (by decide +kernel : ∀ t : Fin grid0.N, _)

/-- Entry (u, r, k) of the left block at point `t` is the left array at (b, 512 i + r, 512 kk + k). -/
theorem ablk_apply (c : Dev nD) (t : Fin cfg0.N) (u : Fin 1) (r : Fin 512) (k : Fin 512) (i : S8x2048x2048.Idx)
    (h0 : (i 0).val = t.val / 16) (h1 : (i 1).val = 512 * (t.val / 4 % 4) + r.val) (h2 : (i 2).val = 512 * (t.val % 4) + k.val) :
    ablk m c t (ix3 u r k) = lhsArr m c i := by
  obtain ⟨e0, e1, e2, -⟩ := idx_facts t
  show (iblk m c 0 t : Vec Ideal S1x512x512 .f32) (ix3 u r k) = V m c main_v10 i
  unfold iblk
  rw [View.read_apply]
  show V m c main_v10 _ = V m c main_v10 _
  congr 1
  funext a
  apply Fin.ext
  match a with
  | ⟨0, _⟩ => show win0_0.index t (0 : Fin 3) * 1 + 1 * u.val = (i 0).val; have := u.isLt; omega
  | ⟨1, _⟩ => show win0_0.index t (1 : Fin 3) * 512 + 1 * r.val = (i 1).val; omega
  | ⟨2, _⟩ => show win0_0.index t (2 : Fin 3) * 512 + 1 * k.val = (i 2).val; omega

/-- Entry (u, k, n) of the right block at point `t` is the right array at (b, 512 kk + k, n). -/
theorem bblk_apply (c : Dev nD) (t : Fin cfg0.N) (u : Fin 1) (k : Fin 512) (n : Fin 2048) (i : S8x2048x2048.Idx)
    (h0 : (i 0).val = t.val / 16) (h1 : (i 1).val = 512 * (t.val % 4) + k.val) (h2 : (i 2).val = n.val) :
    bblk m c t (ix3 u k n) = rhsArr m c i := by
  obtain ⟨-, -, -, e0, e1, e2, -⟩ := idx_facts t
  show (iblk m c 1 t : Vec Ideal S1x512x2048 .f32) (ix3 u k n) = V m c main_arg1 i
  unfold iblk
  rw [View.read_apply]
  show V m c main_arg1 _ = V m c main_arg1 _
  congr 1
  funext a
  apply Fin.ext
  match a with
  | ⟨0, _⟩ => show win0_1.index t (0 : Fin 3) * 1 + 1 * u.val = (i 0).val; have := u.isLt; omega
  | ⟨1, _⟩ => show win0_1.index t (1 : Fin 3) * 512 + 1 * k.val = (i 1).val; omega
  | ⟨2, _⟩ => show win0_1.index t (2 : Fin 3) * 2048 + 1 * n.val = (i 2).val; omega

/-! ### The accumulator across one contraction run -/

/-- What point `n` adds to the accumulator's entry `j` = (r, q): the product of its two blocks there
    (0 past the grid, where the value is never used). -/
def addend (c : Dev nD) (n : ℕ) (j : S512x2048.Idx) : EReal :=
  if h : n < cfg0.N then ∑ k : Fin 512, ablk m c ⟨n, h⟩ (ix3 (0 : Fin 1) (j 0) k) * bblk m c ⟨n, h⟩ (ix3 (0 : Fin 1) k (j 1)) else 0

/-- At the first point of a run the accumulator ends at `0 + ` the point's addend, whatever it held; -/
theorem scAt_reset (c : Dev nD) (n : ℕ) (hb : n < cfg0.N) (h0 : n % 4 = 0) (acc : Vec Ideal S512x2048 .f32) (j : S512x2048.Idx) :
    Value.scAt0_0 m c n hb acc j = 0 + addend m c n j := by
  have h1 : ¬n % 4 = 3 := by omega
  obtain ⟨r, q, rfl⟩ : ∃ (r : Fin 512) (q : Fin 2048), j = ix2 r q := ⟨j 0, j 1, eq_ix2 j⟩
  unfold Value.scAt0_0 addend
  rw [dif_pos h0, dif_neg h1, dif_pos hb]
  refine (congrFun (Pieces.scratch_A (F := Ideal) c (grid0.coords (⟨n, hb⟩ : Fin cfg0.N)) (ms0_0 (⟨n, hb⟩ : Fin cfg0.N)) (hs0_0 (⟨n, hb⟩ : Fin cfg0.N))
    (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h))
    (iblk m c 0 (⟨n, hb⟩ : Fin cfg0.N)) (iblk m c 1 (⟨n, hb⟩ : Fin cfg0.N))) (ix2 r q)).trans ?_
  refine (Payload.step_apply (iblk m c 0 (⟨n, hb⟩ : Fin cfg0.N)) (iblk m c 1 (⟨n, hb⟩ : Fin cfg0.N)) (k0_pay1 (F := Ideal)) r q).trans ?_
  rw [Payload.zero_fill_apply]

/-- at every other point it ends at what it held plus the point's addend. -/
theorem scAt_step (c : Dev nD) (n : ℕ) (hb : n < cfg0.N) (h0 : ¬n % 4 = 0) (acc : Vec Ideal S512x2048 .f32) (j : S512x2048.Idx) :
    Value.scAt0_0 m c n hb acc j = acc j + addend m c n j := by
  obtain ⟨r, q, rfl⟩ : ∃ (r : Fin 512) (q : Fin 2048), j = ix2 r q := ⟨j 0, j 1, eq_ix2 j⟩
  unfold Value.scAt0_0 addend
  rw [dif_neg h0, dif_pos hb]
  by_cases h1 : n % 4 = 3
  · rw [dif_pos h1]
    refine (congrFun (Pieces.scratch_C (F := Ideal) c (grid0.coords (⟨n, hb⟩ : Fin cfg0.N)) (ms0_0 (⟨n, hb⟩ : Fin cfg0.N)) (hs0_0 (⟨n, hb⟩ : Fin cfg0.N))
      (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1)
      (iblk m c 0 (⟨n, hb⟩ : Fin cfg0.N)) (iblk m c 1 (⟨n, hb⟩ : Fin cfg0.N)) acc) (ix2 r q)).trans ?_
    exact Payload.step_apply (iblk m c 0 (⟨n, hb⟩ : Fin cfg0.N)) (iblk m c 1 (⟨n, hb⟩ : Fin cfg0.N)) acc r q
  · rw [dif_neg h1]
    refine (congrFun (Pieces.scratch_B (F := Ideal) c (grid0.coords (⟨n, hb⟩ : Fin cfg0.N)) (ms0_0 (⟨n, hb⟩ : Fin cfg0.N)) (hs0_0 (⟨n, hb⟩ : Fin cfg0.N))
      (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h))
      (iblk m c 0 (⟨n, hb⟩ : Fin cfg0.N)) (iblk m c 1 (⟨n, hb⟩ : Fin cfg0.N)) acc) (ix2 r q)).trans ?_
    exact Payload.step_apply (iblk m c 0 (⟨n, hb⟩ : Fin cfg0.N)) (iblk m c 1 (⟨n, hb⟩ : Fin cfg0.N)) acc r q

/-- After the last point `t` of a run the accumulator holds `0 + ` the sum of the run's four addends. -/
theorem scratch_after (c : Dev nD) (t : Fin cfg0.N) (h3 : t.val % 4 = 3) (j : S512x2048.Idx) :
    (outsAt0 m c t.val t.isLt).2 j = 0 + ∑ s ∈ Finset.range 4, addend m c (4 * (t.val / 4) + s) j := by
  have key : ∀ (j' : ℕ) (hj : j' ≤ 3) (h : 4 * (t.val / 4) + j' < cfg0.N),
      Pipeline.accAt (fun n h => Value.scAt0_0 m c n h (VS0_0.read (Elt Ideal) VS0_0.junk)) (Value.scAt0_0 m c) (4 * (t.val / 4)) j' h j
        = 0 + ∑ s ∈ Finset.range (j' + 1), addend m c (4 * (t.val / 4) + s) j := fun j' hj h =>
    Pipeline.accAt_add_apply (fun n h => Value.scAt0_0 m c n h (VS0_0.read (Elt Ideal) VS0_0.junk)) (Value.scAt0_0 m c)
      (fun _ => (0 : EReal)) (addend m c) (4 * (t.val / 4)) 3
      (fun h i => scAt_reset m c _ h (by omega) _ i)
      (fun n h acc i h1 h2 => scAt_step m c n h (by omega) acc i) j' hj h j
  rw [Value.soutsAt0_0_eq m c t, key (t.val % 4) (by omega) _, h3]

/-- At the last point of a run the output block is the accumulator, re-shaped. -/
theorem out_after (c : Dev nD) (t : Fin cfg0.N) (h3 : t.val % 4 = 3) :
    (outsAt0 m c t.val t.isLt).1 = k0_pay3 ((outsAt0 m c t.val t.isLt).2) := by
  have h0 : ¬t.val % 4 = 0 := by omega
  rw [outsAt0_C m c t h0 h3]
  dsimp only
  exact (Pieces.out_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h3) (iblk m c 0 t) (iblk m c 1 t)
      (outsAt0 m c (t.val - 1) (Nat.lt_of_le_of_lt (Nat.sub_le _ _) t.isLt)).2).trans
    (congrArg k0_pay3 (Pieces.scratch_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h3) (iblk m c 0 t) (iblk m c 1 t)
      (outsAt0 m c (t.val - 1) (Nat.lt_of_le_of_lt (Nat.sub_le _ _) t.isLt)).2).symm)

/-! ### From the flushed blocks to the whole result array -/

/-- What the point that ends a run writes back is its block of the batched product: the four addends of the run are
    the four consecutive 512-blocks of the contraction index. -/
theorem flushed_eq (c : Dev nD) (t : Fin cfg0.N) (hf : (cfg0.win 2).flush t = true) :
    (dats m 0 c).flushed 2 t = ((cfg0.win 2).blk t).view.read (Elt Ideal) (bmm (lhsArr m c) (rhsArr m c)) := by
  have h3 : t.val % 4 = 3 := (flush0_2 t).mp hf
  have hN : t.val < 128 := lt_of_lt_of_eq t.isLt (show cfg0.N = 128 from N_0)
  obtain ⟨-, -, -, -, -, -, e0, e1, e2⟩ := idx_facts t
  rw [Value.flushed2, out_after m c t h3]
  refine funext fun (y : S1x512x2048.Idx) => ?_
  obtain ⟨u, r, q, rfl⟩ : ∃ (u : Fin 1) (r : Fin 512) (q : Fin 2048), y = ix3 u r q := ⟨y 0, y 1, y 2, eq_ix3 y⟩
  show k0_pay3 ((outsAt0 m c t.val t.isLt).2) (ix3 u r q) = bmm (lhsArr m c) (rhsArr m c) (((cfg0.win 2).blk t).view.emb (ix3 u r q))
  have hi0 : ((((cfg0.win 2).blk t).view.emb (ix3 u r q)) 0).val = t.val / 16 := by
    show win0_2.index t (0 : Fin 3) * 1 + 1 * u.val = _; have := u.isLt; omega
  have hi1 : ((((cfg0.win 2).blk t).view.emb (ix3 u r q)) 1).val = 512 * (t.val / 4 % 4) + r.val := by
    show win0_2.index t (1 : Fin 3) * 512 + 1 * r.val = _; omega
  have hi2 : ((((cfg0.win 2).blk t).view.emb (ix3 u r q)) 2).val = q.val := by
    show win0_2.index t (2 : Fin 3) * 2048 + 1 * q.val = _; omega
  generalize ((cfg0.win 2).blk t).view.emb (ix3 u r q) = i at hi0 hi1 hi2
  rw [Payload.copy_out_apply, scratch_after m c t h3, zero_add]
  unfold bmm
  -- the contraction, as a function of the natural contraction index (0 past 2048, never used)
  let f : ℕ → EReal := fun k => if h : k < 2048 then lhsArr m c (ix3 (i 0) (i 1) ⟨k, h⟩) * rhsArr m c (ix3 (i 0) ⟨k, h⟩ (i 2)) else 0
  have hR : ∑ k : Fin 2048, lhsArr m c (ix3 (i 0) (i 1) k) * rhsArr m c (ix3 (i 0) k (i 2)) = ∑ k : Fin 2048, f k.val :=
    Finset.sum_congr rfl fun k _ => by show _ = dite _ _ _; rw [dif_pos k.isLt]
  rw [hR, ← Cert.BlockSums.sum_fin_blocks f 512 4 2048 rfl]
  refine Finset.sum_congr rfl fun s hs => ?_
  have hs4 : s < 4 := Finset.mem_range.mp hs
  have hn : 4 * (t.val / 4) + s < cfg0.N := lt_of_lt_of_eq (by omega : 4 * (t.val / 4) + s < 128) N_0.symm
  unfold addend
  rw [dif_pos hn]
  refine Finset.sum_congr rfl fun k _ => ?_
  have hk : 512 * s + k.val < 2048 := by have := k.isLt; omega
  show _ = dite _ _ _
  rw [dif_pos hk]
  congr 1
  · exact ablk_apply m c ⟨4 * (t.val / 4) + s, hn⟩ 0 r k _ (by show (i 0).val = _; dsimp only; omega)
      (by show (i 1).val = _; dsimp only; omega) (by show 512 * s + k.val = _; dsimp only; omega)
  · exact bblk_apply m c ⟨4 * (t.val / 4) + s, hn⟩ 0 k q _ (by show (i 0).val = _; dsimp only; omega)
      (by show 512 * s + k.val = _; dsimp only; omega) (by show (i 2).val = _; exact hi2)

/-- An index of the result array is in point `t`'s output block iff each coordinate is in the block's range. -/
theorem mem_blk (t : Fin cfg0.N) (i : S8x2048x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v11).slice (win0_2.rect t)).set ↔ _
  rw [View.set_slice_whole, Rect.mem_set_unit]
  exact Iff.rfl

/-- Every entry (b, r, n) of the result lies in the block written back at the point (b, r / 512, 3). -/
theorem cover (i : S8x2048x2048.Idx) :
    ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 2048 := (i 2).isLt
  have hN : cfg0.N = 128 := N_0
  let t : Fin cfg0.N := ⟨16 * (i 0).val + 4 * ((i 1).val / 512) + 3, lt_of_lt_of_eq (by omega : 16 * (i 0).val + 4 * ((i 1).val / 512) + 3 < 128) hN.symm⟩
  have ht : t.val = 16 * (i 0).val + 4 * ((i 1).val / 512) + 3 := rfl
  obtain ⟨-, -, -, -, -, -, e0, e1, e2⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- So the result array ends holding the batched product of the masked left array and the right array. -/
theorem final (c : Dev nD) : (dats m 0 c).arrAt 2 cfg0.N = bmm (lhsArr m c) (rhsArr m c) :=
  (dats m 0 c).arrAt_eq_of_cover 2 (bmm (lhsArr m c) (rhsArr m c)) (flushed_eq m c) cover

/-! ### The two arrays in terms of the arguments -/

/-- The masking the host does before the kernel: the left argument times the 0/1 indicator, spread back over each
    64 × 64 tile, of "the tile's largest absolute value exceeds the threshold". -/
def masked (x : FVec Ideal S8x2048x2048 .f32) : FVec Ideal S8x2048x2048 .f32 :=
  mulf (F := Ideal) x (uitofp .f32 (shapeCast _ (broadcastInDim S8x2048x32x64 ![0, 1, 2] bcast_S8x2048x32_S8x2048x32x64_0_1_2 (shapeCast _ (broadcastInDim S8x32x64x32 ![0, 1, 3] bcast_S8x32x32_S8x32x64x32_0_1_3 (cmpf .ogt (Host.reduce FloatOps.maximumf (shapeCast _ (Host.absf x) shapeCasts_S8x2048x2048_S8x32x64x32x64) (constant (F := Ideal) S_ .f32 0xFF800000#32) reducesTo_S8x32x64x32x64_S8x32x32_d2_4 h_S_) (broadcastInDim S8x32x32 ![] bcast_S_S8x32x32 (constant (F := Ideal) S_ .f32 0x358637BD#32)))) shapeCasts_S8x32x64x32_S8x2048x32)) shapeCasts_S8x2048x32x64_S8x2048x2048))

/-- The left array the region finds is the masked left argument. -/
theorem lhsArr_eq (c : Dev nD) : lhsArr m c = masked (m ((c : Thread nD τ).loc main_arg0)) := by
  show (V m c main_v10 : S8x2048x2048.Idx → EReal) = _
  unfold masked
  dsimp only [Gen.V, Gen.hostOps0]
  after_results
  rfl

/-- The right array is the right argument. -/
theorem rhsArr_eq (c : Dev nD) : rhsArr m c = m ((c : Thread nD τ).loc main_arg1) := V_main_arg1 m c

/-- The kernel program's run: the result is the batched product of the masked left argument and the right argument;
    the arguments are unchanged. -/
theorem run : θ_run defs (onTc (τ := τ) (main (F := Ideal))) ⟨m, fun _ => 0, ρ⟩ fun r => ∀ c : Dev nD,
      r.2.mem ((c : Thread nD τ).loc main_v11) = bmm (masked (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (by rw [final m c, lhsArr_eq m c, rhsArr_eq m c]), (h c).2⟩)
    (Value.run_blocks m ρ)

end Cert.KernelIdeal.Bmm
end
-- ==== Proof.RefValue.lean ====
/-
  The reference's result, read at an index over the extended reals: entry (b, r, n) of the batched
  `dot_general` (batch axis 0, contracting the left array's last axis with the right array's middle axis) is
  Σ_{k < 2048} L[b, r, k] · R[b, k, n], where L is the masked left argument.
-/
import proofs.«108795_j23940147708357_1_alg».proof.Proof.Gen.ReferenceIdeal.Read
import Idealize.ShloMosaic.Lib.ValueIdx

noncomputable section

open Idealize.ShloMosaic Idealize.ShloMosaic.ValueIdx

namespace Cert.ReferenceIdeal.Bmm

open Cert.ReferenceIdeal Cert.ReferenceIdeal.Gen Cert.ReferenceIdeal.Read

theorem result_apply (x0 x1 : (⟨S8x2048x2048, .f32⟩ : BufTy).Contents (Elt Ideal)) (i : S8x2048x2048.Idx) :
    val_main_v11 (F := Ideal) x0 x1 i
      = ∑ k : Fin 2048, val_main_v10 (F := Ideal) x0 (ix3 (i 0) (i 1) k) * x1 (ix3 (i 0) k (i 2)) := by
  rw [val_main_v11_apply]
  refine Finset.sum_congr rfl fun k _ => ?_
  have el : lidx_main_v11 i k = ix3 (i 0) (i 1) k :=
    funext fun a => Fin.ext (by match a with | ⟨0, _⟩ => rfl | ⟨1, _⟩ => rfl | ⟨2, _⟩ => rfl)
  have er : ridx_main_v11 i k = ix3 (i 0) k (i 2) :=
    funext fun a => Fin.ext (by match a with | ⟨0, _⟩ => rfl | ⟨1, _⟩ => rfl | ⟨2, _⟩ => rfl)
  rw [el, er]
  rfl

end Cert.ReferenceIdeal.Bmm
end
-- ==== Proof.lean ====
/-
  The kernel and the reference compute the same [8, 2048, 2048] array over the extended reals.

  Both programs first mask the left argument `a` on the host, by the same operations and the same constants: a
  64 × 64 tile of `a` is kept when its largest absolute value exceeds the threshold and replaced by zeros otherwise.
  Call the masked array L and the right argument R.

  The reference is one batched contraction: entry (b, r, n) is Σ_{k < 2048} L[b, r, k] · R[b, k, n].

  The kernel walks a grid of (batch b, row tile i, contraction tile kk) with 512-wide tiles. For each (b, i) it zeroes
  a [512, 2048] accumulator at kk = 0, adds Σ_{k < 512} L[b, 512 i + r, 512 kk + k] · R[b, 512 kk + k, n] at each kk, and
  writes the accumulator to output block (b, i) at kk = 3. The casts to a 16-bit float format before the product are
  the identity on extended reals. So entry (b, 512 i + r, n) of its result is
  0 + Σ_{kk < 4} Σ_{k < 512} L[b, 512 i + r, 512 kk + k] · R[b, 512 kk + k, n]: the reference's sum over k < 2048, cut into
  four consecutive blocks. Regrouping a finite sum needs only commutativity and associativity of +, which hold on the
  extended reals, so the finiteness of the inputs is never used.

  The modules: BlockSums (a sum over w·n naturals as n block sums), Pieces (what each control case of the body leaves
  in the accumulator and in the output block, as terms over the body's arithmetic), Payload (that arithmetic read at an
  index), KernelValue (the accumulator across a contraction run as a fold; the output blocks tile the result; the
  kernel's run), RefValue (the reference's contraction read at an index), and here the claims.
-/
import proofs.«108795_j23940147708357_1_alg».proof.Defs
import proofs.«108795_j23940147708357_1_alg».proof.Proof.Gen.Kernel
import proofs.«108795_j23940147708357_1_alg».proof.Proof.Gen.Kernel.Skeleton
import proofs.«108795_j23940147708357_1_alg».proof.Proof.Gen.Kernel.Launch
import proofs.«108795_j23940147708357_1_alg».proof.Proof.Gen.Kernel.Points
import proofs.«108795_j23940147708357_1_alg».proof.Proof.Gen.Kernel.Frame
import proofs.«108795_j23940147708357_1_alg».proof.Proof.Gen.KernelIdeal
import proofs.«108795_j23940147708357_1_alg».proof.Proof.Gen.KernelIdeal.Skeleton
import proofs.«108795_j23940147708357_1_alg».proof.Proof.Gen.KernelIdeal.Launch
import proofs.«108795_j23940147708357_1_alg».proof.Proof.Gen.KernelIdeal.Points
import proofs.«108795_j23940147708357_1_alg».proof.Proof.Gen.KernelIdeal.Frame
import proofs.«108795_j23940147708357_1_alg».proof.Proof.Gen.ReferenceIdeal
import proofs.«108795_j23940147708357_1_alg».proof.Proof.Gen.Pre_finite_inputs
import proofs.«108795_j23940147708357_1_alg».proof.Proof.Gen.KernelIdeal.Value
import proofs.«108795_j23940147708357_1_alg».proof.Proof.Gen.ReferenceIdeal.Run
import proofs.«108795_j23940147708357_1_alg».proof.Proof.Gen.ReferenceIdeal.Read
import Idealize.ShloMosaic.Adequacy
import Idealize.ShloMosaic.Init
import proofs.«108795_j23940147708357_1_alg».proof.Proof.KernelValue
import proofs.«108795_j23940147708357_1_alg».proof.Proof.RefValue

noncomputable section

namespace Cert.Proof

open Idealize.ShloMosaic Idealize.ShloMosaic.TcCoe Idealize.SL.Sem

/-- The two programs' host-side masking is one function of the left argument (the same operations on the same
    shapes, with the same constants). -/
theorem masked_eq (x : FVec Ideal Cert.KernelIdeal.S8x2048x2048 .f32) :
    Cert.ReferenceIdeal.Read.val_main_v10 (F := Ideal) x = Cert.KernelIdeal.Bmm.masked x := rfl

/-- The reference's contraction of the masked left argument with the right argument is the kernel's batched product. -/
theorem reference_eq (x0 x1 : FVec Ideal Cert.KernelIdeal.S8x2048x2048 .f32) :
    Cert.ReferenceIdeal.Read.val_main_v11 (F := Ideal) x0 x1 = Cert.KernelIdeal.Bmm.bmm (Cert.KernelIdeal.Bmm.masked x0) x1 := by
  funext i
  rw [Cert.ReferenceIdeal.Bmm.result_apply, masked_eq]
  rfl

/-- The word-level kernel runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the batched product of the masked left
    argument and the right argument. -/
theorem algebraic : Cert.algebraic_KernelIdeal_ReferenceIdeal := by
  intro m ρ m' ρ' _ hagree
  refine ⟨_, Cert.KernelIdeal.Bmm.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
